-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn {F : FTy → Type} [FloatOps F] (main_arg0 : FVec F S32x2048x1024 .f32) (main_arg1 : FVec F S32x2048x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  main_v8
-- ==== Kernel.lean ====
abbrev S32x2048x1024 : Shape := ⟨3, ![32, 2048, 1024]⟩
abbrev S32x2048 : Shape := ⟨2, ![32, 2048]⟩
abbrev S8x256x1024 : Shape := ⟨3, ![8, 256, 1024]⟩
abbrev S8x256 : Shape := ⟨2, ![8, 256]⟩

abbrev nBuf : Space → Nat
  | .hbm => 3
  | .vmem => 6
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048, .f32⟩
  | .local _ .vmem, ⟨0, _⟩ => ⟨S8x256x1024, .f32⟩
  | .local _ .vmem, ⟨1, _⟩ => ⟨S8x256x1024, .f32⟩
  | .local _ .vmem, ⟨2, _⟩ => ⟨S8x256x1024, .f32⟩
  | .local _ .vmem, ⟨3, _⟩ => ⟨S8x256x1024, .f32⟩
  | .local _ .vmem, ⟨4, _⟩ => ⟨S8x256, .f32⟩
  | .local _ .vmem, ⟨5, _⟩ => ⟨S8x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x256x1024_S8x256x1024_0_0_0 : ∀ a, (![0, 0, 0] : Fin 3 → Nat) a + S8x256x1024.size a ≤ S8x256x1024.size a
  h_S8x256x1024 : 0 < S8x256x1024.numel
  reduces_S8x256x1024_S8x256 : S8x256x1024.Reduces [2] S8x256
  inb_S8x256_S8x256_0_0 : ∀ a, (![0, 0] : Fin 2 → Nat) a + S8x256.size a ≤ S8x256.size a
  h_S8x256 : 0 < S8x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S32x2048x1024.size a
  hwx0_0 : ∀ i : grid0.Coords, EltTy.bits .f32 = 32 ∨ (Rect.block (s := S32x2048x1024) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1024.size a ≤ S32x2048x1024.size a
  hwx0_1 : ∀ i : grid0.Coords, EltTy.bits .f32 = 32 ∨ (Rect.block (s := S32x2048x1024) S8x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S32x2048.size a
  hwx0_2 : ∀ i : grid0.Coords, EltTy.bits .f32 = 32 ∨ (Rect.block (s := S32x2048) S8x256.size (cc0_transform_2 i) (hinb0_2 i)).WholeWords (EltTy.packing .f32)

variable [Facts₀]

abbrev win0_0 : Pipeline.Window sig grid0 :=
  Pipeline.Window.ofSpec (Memref.whole main_arg0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S_ : Shape := ⟨0, ![]⟩
abbrev S32x2048 : Shape := ⟨2, ![32, 2048]⟩

abbrev nBuf : Space → Nat
  | .hbm => 21
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S_, .f32⟩
  | .hbm, ⟨4, _⟩ => ⟨S32x2048, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S_, .f32⟩
  | .hbm, ⟨9, _⟩ => ⟨S32x2048, .f32⟩
  | .hbm, ⟨10, _⟩ => ⟨S32x2048, .f32⟩
  | .hbm, ⟨11, _⟩ => ⟨S32x2048, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S_, .f32⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S32x2048, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S32x2048x1024_S32x2048_d2 : S32x2048x1024.ReducesTo [2] S32x2048
  h_S_ : 0 < S_.numel
  bcast_S_S32x2048 : S_.BroadcastsInDim S32x2048 (![] : Fin 0 → Fin S32x2048.rank)

variable [Facts₀]

class Facts : Prop extends Facts₀ where

variable [Facts]
-- ==== Proof.RowCosine.lean ====
/-
  The function both programs compute, stated once over arrays of extended reals.

  For a rank-3 array `x` of extents `n0 × n1 × n2`, row `(p, q)` is the vector `k ↦ x (p, q, k)`.
  `rowDot x y p q` is the inner product of row `(p, q)` of `x` with row `(p, q)` of `y`;
  `rowNorm ε x p q` is the square root of `max (rowDot x x p q) ε`, the row's length clamped below;
  `cosine ε x y p q` is the quotient of the inner product by the product of the two clamped lengths.

  Everything is read on the extended reals with the ideal operations (`Ideal.sqrt`, `Ideal.div`), and
  nothing here needs the entries to be finite: the only fact used about these functions is that each
  depends on `x` and `y` through row `(p, q)` alone (`cosine_congr`). That is what lets a block of
  rows be treated on its own: a block that holds whole rows of the arrays has, row by row, the cosine
  of the arrays.
-/
import Idealize.ShloMosaic.PureOps.Ideal
import Idealize.ShloMosaic.Lib.ValueIdx

noncomputable section

open scoped BigOperators

namespace Cert.RowCosine

open Idealize.ShloMosaic Idealize.ShloMosaic.ValueIdx

/-- The inner product of row `(p, q)` of `x` and row `(p, q)` of `y`: the sum over the last axis of the products. -/
def rowDot {n0 n1 n2 : Nat} (x y : (⟨3, ![n0, n1, n2]⟩ : Shape).Idx → EReal) (p : Fin n0) (q : Fin n1) : EReal :=
  ∑ k : Fin n2, x (ix3 p q k) * y (ix3 p q k)

/-- The length of row `(p, q)` of `x` with its square clamped below by `ε`. -/
def rowNorm (ε : EReal) {n0 n1 n2 : Nat} (x : (⟨3, ![n0, n1, n2]⟩ : Shape).Idx → EReal) (p : Fin n0) (q : Fin n1) : EReal :=
  Ideal.sqrt (max (rowDot x x p q) ε)

/-- The cosine of the angle between row `(p, q)` of `x` and row `(p, q)` of `y`, with clamped lengths. -/
def cosine (ε : EReal) {n0 n1 n2 : Nat} (x y : (⟨3, ![n0, n1, n2]⟩ : Shape).Idx → EReal) (p : Fin n0) (q : Fin n1) : EReal :=
  Ideal.div (rowDot x y p q) (rowNorm ε x p q * rowNorm ε y p q)

/-- The same, as an array over the row indices. -/
abbrev cosineRows (ε : EReal) {n0 n1 n2 : Nat} (x y : (⟨3, ![n0, n1, n2]⟩ : Shape).Idx → EReal) :
    (⟨2, ![n0, n1]⟩ : Shape).Idx → EReal :=
  fun i => cosine ε x y (i 0) (i 1)

/-- The clamp both programs apply to a row's squared length: the binary32 word `0x2B8CBCCC` read as the extended
    real it denotes. Both sides carry the same word, so its value is never needed. -/
abbrev clampWord : EReal := Ideal.ofBits .f32 0x2B8CBCCC#32

/-- The inner product of two rows depends on the rows alone: if row `(p, q)` of the small arrays `x`, `y` is row
    `(P, Q)` of the large arrays `X`, `Y`, entry by entry, the inner products agree. -/
theorem rowDot_congr {n0 n1 b0 b1 n2 : Nat}
    (x y : (⟨3, ![b0, b1, n2]⟩ : Shape).Idx → EReal) (X Y : (⟨3, ![n0, n1, n2]⟩ : Shape).Idx → EReal)
    (p : Fin b0) (q : Fin b1) (P : Fin n0) (Q : Fin n1)
    (hx : ∀ k : Fin n2, x (ix3 p q k) = X (ix3 P Q k)) (hy : ∀ k : Fin n2, y (ix3 p q k) = Y (ix3 P Q k)) :
    rowDot x y p q = rowDot X Y P Q := by
  unfold rowDot
  exact Finset.sum_congr rfl fun k _ => by rw [hx k, hy k]

/-- So does the cosine: a block holding whole rows has the arrays' cosine on each of its rows. -/
theorem cosine_congr (ε : EReal) {n0 n1 b0 b1 n2 : Nat}
    (x y : (⟨3, ![b0, b1, n2]⟩ : Shape).Idx → EReal) (X Y : (⟨3, ![n0, n1, n2]⟩ : Shape).Idx → EReal)
    (p : Fin b0) (q : Fin b1) (P : Fin n0) (Q : Fin n1)
    (hx : ∀ k : Fin n2, x (ix3 p q k) = X (ix3 P Q k)) (hy : ∀ k : Fin n2, y (ix3 p q k) = Y (ix3 P Q k)) :
    cosine ε x y p q = cosine ε X Y P Q := by
  unfold cosine rowNorm
  rw [rowDot_congr x y X Y p q P Q hx hy, rowDot_congr x x X X p q P Q hx hx, rowDot_congr y y Y Y p q P Q hy hy]

end Cert.RowCosine

end
-- ==== Proof.RefRows.lean ====
/-
  The reference, read at an index, is the row cosine.

  The reference forms the three row sums `Σ a·b`, `Σ a·a`, `Σ b·b` over the last axis (each a host sum started
  from the zero word), clamps the two squared lengths below, takes square roots, multiplies them and divides.
  Read at row `(p, q)` every stage depends on the entries `(p, q, k)` only, the zero word adds nothing, and the
  host's square root and quotient are the ideal ones: the result is `cosine clampWord a b p q`.
-/
import proofs.«135016_j49289044689062_1_alg».proof.Proof.Gen.ReferenceIdeal.Read
import proofs.«135016_j49289044689062_1_alg».proof.Proof.RowCosine
import Idealize.ShloMosaic.PureOps.Ideal.Laws

noncomputable section

open scoped BigOperators

namespace Cert.ReferenceIdeal.RefRows

open Cert.ReferenceIdeal Cert.ReferenceIdeal.Gen Cert.ReferenceIdeal.Read
open Idealize.ShloMosaic Idealize.ShloMosaic.TcCoe Idealize.ShloMosaic.ValueIdx Cert.RowCosine

/-- Entry `k` of the row under the result index `(p, q)`, for the sum `Σ a·b`. -/
theorem row_v1 (p : Fin 32) (q : Fin 2048) (k : Fin 1024) : idx_main_v1 (ix2 p q) k = ix3 p q k :=
  funext fun a => Fin.ext (by match a with | ⟨0, _⟩ => rfl | ⟨1, _⟩ => rfl | ⟨2, _⟩ => rfl)

/-- The same for `Σ a·a`. -/
theorem row_v3 (p : Fin 32) (q : Fin 2048) (k : Fin 1024) : idx_main_v3 (ix2 p q) k = ix3 p q k :=
  funext fun a => Fin.ext (by match a with | ⟨0, _⟩ => rfl | ⟨1, _⟩ => rfl | ⟨2, _⟩ => rfl)

/-- The same for `Σ b·b`. -/
theorem row_v8 (p : Fin 32) (q : Fin 2048) (k : Fin 1024) : idx_main_v8 (ix2 p q) k = ix3 p q k :=
  funext fun a => Fin.ext (by match a with | ⟨0, _⟩ => rfl | ⟨1, _⟩ => rfl | ⟨2, _⟩ => rfl)

/-- The reference's result at row `(p, q)` is the cosine of the two rows. -/
theorem ref_at (x0 x1 : (⟨S32x2048x1024, .f32⟩ : BufTy).Contents (Elt Ideal)) (p : Fin 32) (q : Fin 2048) :
    val_main_v13 (F := Ideal) x0 x1 (ix2 p q) = cosine clampWord x0 x1 p q := by
  rw [val_main_v13_apply, val_main_v1_apply, val_main_v12_apply, val_main_v6_apply, val_main_v11_apply,
    val_main_v5_apply, val_main_v10_apply, val_main_v3_apply, val_main_v8_apply, val_main_v4_apply, val_main_v9_apply]
  simp only [val_main_v0_apply, val_main_v2_apply, val_main_v7_apply, val_main_cst_apply, val_main_cst_0_apply,
    val_main_cst_1_apply, val_main_cst_2_apply, val_main_cst_3_apply, row_v1, row_v3, row_v8,
    Ideal.hostDivf_def, Ideal.mulf_def, Ideal.hostUnary_sqrt_def, Ideal.maximumf_def, Ideal.ofBits_def,
    Ideal.ofBits_zero_f32, zero_add]
  rfl

/-- So the reference's result array is the array of row cosines. -/
theorem ref_eq (x0 x1 : (⟨S32x2048x1024, .f32⟩ : BufTy).Contents (Elt Ideal)) :
    val_main_v13 (F := Ideal) x0 x1 = cosineRows clampWord x0 x1 := by
  funext i
  obtain ⟨p, q, rfl⟩ : ∃ (p : Fin 32) (q : Fin 2048), i = ix2 p q := ⟨i 0, i 1, eq_ix2 i⟩
  exact ref_at x0 x1 p q

end Cert.ReferenceIdeal.RefRows

end
-- ==== Proof.BlockRows.lean ====
/-
  One block of the kernel, read at an index, is the row cosine of the block.

  At a grid point the body holds an `8 × 256 × 1024` block of each input, that is 8 × 256 whole rows. It sums
  `a·b`, `a·a` and `b·b` along the lanes of each row, clamps, takes square roots, multiplies and divides. A lane
  sum at `(p, q)` is the sum over `k` of the summand at `(p, q, k)`; so the value stored at `(p, q)` is
  `cosine clampWord` of the two blocks at row `(p, q)`.
-/
import proofs.«135016_j49289044689062_1_alg».proof.Proof.Gen.KernelIdeal.Value
import proofs.«135016_j49289044689062_1_alg».proof.Proof.RowCosine
import Idealize.ShloMosaic.PureOps.Ideal.Laws

noncomputable section

open scoped BigOperators

namespace Cert.KernelIdeal.BlockRows

open Cert.KernelIdeal Cert.KernelIdeal.Gen
open Idealize.ShloMosaic Idealize.ShloMosaic.TcCoe Idealize.ShloMosaic.ValueIdx Cert.RowCosine

/-- A sum along the lanes of an `8 × 256 × 1024` block, read at row `(p, q)`: the sum over `k` of the entry
    `(p, q, k)`. -/
theorem laneSum_at (src : FVec Ideal S8x256x1024 .f32) (h : S8x256x1024.Reduces [2] S8x256) (p : Fin 8) (q : Fin 256) :
    multiReduction (F := Ideal) .add [2] S8x256 src 0x00000000#32 h (.inl rfl) rfl (ix2 p q)
      = ∑ k : Fin 1024, src (ix3 p q k) :=
  (Ideal.multiReduction_add_single src _ h _ _ (ix2 p q)).trans
    (Finset.sum_congr rfl fun k _ => congrArg src
      (funext fun a => Fin.ext (by match a with | ⟨0, _⟩ => rfl | ⟨1, _⟩ => rfl | ⟨2, _⟩ => rfl)))

/-- The three places the block's value reads its lane sums are the block index itself. -/
theorem at_0 (y : S8x256.Idx) : Value.ix2_0 y = y := funext fun a => by match a with | ⟨0, _⟩ => rfl | ⟨1, _⟩ => rfl
theorem at_1 (y : S8x256.Idx) : Value.ix2_1 y = y := funext fun a => by match a with | ⟨0, _⟩ => rfl | ⟨1, _⟩ => rfl
theorem at_2 (y : S8x256.Idx) : Value.ix2_2 y = y := funext fun a => by match a with | ⟨0, _⟩ => rfl | ⟨1, _⟩ => rfl

/-- What the body leaves at `(p, q)` of its output block is the cosine of rows `(p, q)` of its two input blocks. -/
theorem block_at (P0 P1 : Vec Ideal S8x256x1024 .f32) (p : Fin 8) (q : Fin 256) :
    Value.E2 (F := Ideal) P0 P1 (ix2 p q) = cosine clampWord P0 P1 p q := by
  show Ideal.div
      (multiReduction (F := Ideal) .add [2] S8x256 (mulf P0 P1) 0x00000000#32 reduces_S8x256x1024_S8x256 (.inl rfl) rfl (Value.ix2_0 (ix2 p q)))
      (Ideal.sqrt (max (multiReduction (F := Ideal) .add [2] S8x256 (mulf P0 P0) 0x00000000#32 reduces_S8x256x1024_S8x256 (.inl rfl) rfl (Value.ix2_1 (ix2 p q))) clampWord)
        * Ideal.sqrt (max (multiReduction (F := Ideal) .add [2] S8x256 (mulf P1 P1) 0x00000000#32 reduces_S8x256x1024_S8x256 (.inl rfl) rfl (Value.ix2_2 (ix2 p q))) clampWord)) = _
  rw [at_0, at_1, at_2, laneSum_at, laneSum_at, laneSum_at]
  rfl

end Cert.KernelIdeal.BlockRows

end
-- ==== Proof.KernelRows.lean ====
/-
  From blocks to the array: after the kernel's run its result array is the array of row cosines.

  The grid has 4 × 8 points. At point `(g0, g1)` each input window holds the `8 × 256 × 1024` block of its
  array at block index `(g0, g1, 0)`, that is rows `8·g0 … 8·g0+7` × `256·g1 … 256·g1+255`, whole; the output
  window writes back the `8 × 256` block at block index `(g0, g1)`, the same rows. So entry `(p, q, k)` of an
  input block is entry `(8·g0 + p, 256·g1 + q, k)` of the array, and since a row's cosine depends on that row
  alone, what the point writes back is the block of `cosineRows` of the whole arrays under it. The 32 output
  blocks tile the `32 × 2048` result (row `(P, Q)` lies in block `(P / 8, Q / 256)`), so the result array is
  `cosineRows` everywhere.
-/
import proofs.«135016_j49289044689062_1_alg».proof.Proof.Gen.KernelIdeal.Value
import proofs.«135016_j49289044689062_1_alg».proof.Proof.RowCosine
import proofs.«135016_j49289044689062_1_alg».proof.Proof.BlockRows
import Idealize.ShloMosaic.Lib.Pipeline.Value

noncomputable section

namespace Cert.KernelIdeal.KernelRows

open Cert.KernelIdeal Cert.KernelIdeal.Gen
open Idealize.ShloMosaic Idealize.ShloMosaic.TcCoe Idealize.SL.Sem Idealize.ShloMosaic.ValueIdx Cert.RowCosine
open Idealize.ShloMosaic.Pipeline (Dat)

variable (m : (ℓ : Loc nD τ sig) → Buf (Elt Ideal) ℓ) (ρ : Dev nD → PrngReg)

/-- The array of row cosines of two `32 × 2048 × 1024` arrays, at the program's literal shapes. -/
abbrev rows (a b : S32x2048x1024.Idx → EReal) : S32x2048.Idx → EReal := cosineRows clampWord a b

theorem zero3 : (![0, 0, 0] : Fin 3 → Nat) = fun _ => 0 := funext fun a => by fin_cases a <;> rfl

/-- What the body leaves at `(p, q)` of the output's buffer, from the two input blocks it was given: the cosine
    of their rows `(p, q)`. (The body loads each block whole, and its one store covers the buffer.) -/
theorem out_at (x0 x1 : Vec Ideal S8x256x1024 .f32) (p : Fin 8) (q : Fin 256) :
    out0_2 x0 x1 (ix2 p q) = cosine clampWord x0 x1 p q := by
  unfold out0_2
  refine (Value.canon2_eq _ _ (ix2 p q)).trans ?_
  simp only [View.ld_unit_zero (S := S8x256x1024) zero3]
  exact BlockRows.block_at x0 x1 p q

/-- The printed index maps, decided over the 32 grid points: both input windows sit at the output window's block
    index on the two row axes and at block 0 on the lane axis; the output's block indices range over 4 × 8. -/
theorem moves_together : ∀ t : Fin cfg0.N,
    win0_0.index t (0 : Fin 3) = win0_2.index t (0 : Fin 2) ∧ win0_0.index t (1 : Fin 3) = win0_2.index t (1 : Fin 2)
    ∧ win0_0.index t (2 : Fin 3) = 0
    ∧ win0_1.index t (0 : Fin 3) = win0_2.index t (0 : Fin 2) ∧ win0_1.index t (1 : Fin 3) = win0_2.index t (1 : Fin 2)
    ∧ win0_1.index t (2 : Fin 3) = 0
    ∧ win0_2.index t (0 : Fin 2) ≤ 3 ∧ win0_2.index t (1 : Fin 2) ≤ 7 :=
  (by decide +kernel : ∀ t : Fin grid0.N, _)

/-- Every block index of the 4 × 8 box is some grid point's. -/
theorem every_block : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- What point `t` writes back is block `t` of the row cosines of the whole argument arrays. -/
theorem flushed_rows (c : Dev nD) (t : Fin cfg0.N) :
    (dats m 0 c).flushed 2 t
      = ((cfg0.win 2).blk t).view.read (Elt Ideal) (rows (V m c main_arg0) (V m c main_arg1)) := by
  rw [Value.flushed2]
  obtain ⟨a0, a1, a2, b0, b1, b2, -, -⟩ := moves_together t
  funext j
  show out0_2 (iblk m c 0 t) (iblk m c 1 t) j
    = cosine clampWord (V m c main_arg0) (V m c main_arg1)
        ((((cfg0.win 2).blk t).view.emb j) 0) ((((cfg0.win 2).blk t).view.emb j) 1)
  refine (congrArg (out0_2 (iblk m c 0 t) (iblk m c 1 t)) (eq_ix2 j)).trans ?_
  refine (out_at (iblk m c 0 t) (iblk m c 1 t) (j 0) (j 1)).trans ?_
  refine cosine_congr clampWord (iblk m c 0 t) (iblk m c 1 t) (V m c main_arg0) (V m c main_arg1) (j 0) (j 1) _ _ ?_ ?_
  · intro k
    show V m c main_arg0 (((cfg0.win 0).blk t).view.emb (ix3 (j 0) (j 1) k)) = V m c main_arg0 (ix3 _ _ k)
    refine congrArg (V m c main_arg0) (funext fun a => Fin.ext ?_)
    match a with
    | ⟨0, _⟩ => show win0_0.index t (0 : Fin 3) * 8 + 1 * (j 0).val = win0_2.index t (0 : Fin 2) * 8 + 1 * (j 0).val; omega
    | ⟨1, _⟩ => show win0_0.index t (1 : Fin 3) * 256 + 1 * (j 1).val = win0_2.index t (1 : Fin 2) * 256 + 1 * (j 1).val; omega
    | ⟨2, _⟩ => show win0_0.index t (2 : Fin 3) * 1024 + 1 * k.val = k.val; omega
  · intro k
    show V m c main_arg1 (((cfg0.win 1).blk t).view.emb (ix3 (j 0) (j 1) k)) = V m c main_arg1 (ix3 _ _ k)
    refine congrArg (V m c main_arg1) (funext fun a => Fin.ext ?_)
    match a with
    | ⟨0, _⟩ => show win0_1.index t (0 : Fin 3) * 8 + 1 * (j 0).val = win0_2.index t (0 : Fin 2) * 8 + 1 * (j 0).val; omega
    | ⟨1, _⟩ => show win0_1.index t (1 : Fin 3) * 256 + 1 * (j 1).val = win0_2.index t (1 : Fin 2) * 256 + 1 * (j 1).val; omega
    | ⟨2, _⟩ => show win0_1.index t (2 : Fin 3) * 1024 + 1 * k.val = k.val; omega

/-- An index of the result array is in point `t`'s block iff each coordinate is in the block's range on its axis. -/
theorem mem_block (t : Fin cfg0.N) (i : S32x2048.Idx) :
    i ∈ ((cfg0.win 2).blk t).view.set ↔
      ∀ a : Fin 2, win0_2.index t a * S8x256.size a ≤ (i a).val ∧ (i a).val < win0_2.index t a * S8x256.size a + S8x256.size a := by
  show i ∈ ((View.whole main_v0).slice (win0_2.rect t)).set ↔ _
  rw [View.set_slice_whole, Rect.mem_set_unit]
  exact Iff.rfl

/-- The output's blocks tile the result: row `(P, Q)` is in the block at block index `(P / 8, Q / 256)`. -/
theorem covered (i : S32x2048.Idx) :
    ∃ t : Fin cfg0.N, (cfg0.win 2).flush t = true ∧ i ∈ ((cfg0.win 2).blk t).view.set := by
  have hi0 : (i 0).val < 32 := (i 0).isLt
  have hi1 : (i 1).val < 2048 := (i 1).isLt
  obtain ⟨t, ht⟩ := every_block ⟨(i 0).val / 8, by omega⟩ ⟨(i 1).val / 256, by omega⟩
  have q0 : win0_2.index t (0 : Fin 2) = (i 0).val / 8 := congrFun ht 0
  have q1 : win0_2.index t (1 : Fin 2) = (i 1).val / 256 := congrFun ht 1
  refine ⟨t, flush0_2 t, ?_⟩
  rw [mem_block]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 256 ≤ (i 1).val ∧ (i 1).val < win0_2.index t (1 : Fin 2) * 256 + 256; omega

/-- The result array after the run: the row cosines of the argument arrays. -/
theorem final_rows (c : Dev nD) :
    (dats m 0 c).arrAt 2 cfg0.N
      = rows (m ((c : Thread nD τ).loc main_arg0)) (m ((c : Thread nD τ).loc main_arg1)) :=
  (dats m 0 c).arrAt_eq_of_cover 2 (rows (V m c main_arg0) (V m c main_arg1))
    (fun t _ => flushed_rows m c t) covered

/-- The kernel's run: it terminates with the result array at the row cosines of the arguments, the arguments unchanged. -/
theorem run : θ_run defs (onTc (τ := τ) (main (F := Ideal))) ⟨m, fun _ => 0, ρ⟩ fun r => ∀ c : Dev nD,
      r.2.mem ((c : Thread nD τ).loc main_v0)
        = rows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_rows m c), (h c).2⟩) (Value.run_blocks m ρ)

end Cert.KernelIdeal.KernelRows

end
-- ==== Proof.lean ====
/-
  Per-row cosine similarity of two `32 × 2048 × 1024` arrays: the kernel against its reference, over the extended reals.

  Both programs compute, for every row `(p, q)`,
      `(Σ_k a(p,q,k)·b(p,q,k)) / (√max(Σ_k a(p,q,k)², ε) · √max(Σ_k b(p,q,k)², ε))`
  with the same binary32 word for `ε`. The reference does it on the whole arrays; the kernel walks a 4 × 8 grid and at
  each point does it on an `8 × 256 × 1024` block of each input, writing an `8 × 256` block of the result.

  Nothing is rearranged between the two: the summed axis is never split, so each row's three sums are the very
  same sums on both sides. The one law used is that a row's cosine depends on that row alone (RowCosine.lean,
  `cosine_congr`), which carries a block's result to the arrays' (KernelRows.lean); the blocks tile the result.
  No step divides out or distributes anything, so the entries' finiteness is never called on, and the
  idealization rewrote no operation, so its conjunct is `True`.

  RowCosine.lean states the function; RefRows.lean reads the reference's run at an index and finds it;
  BlockRows.lean finds it in one block of the kernel; KernelRows.lean goes from the blocks to the array and
  restates the kernel's run. Below, the five conjuncts.
-/
import proofs.«135016_j49289044689062_1_alg».proof.Defs
import proofs.«135016_j49289044689062_1_alg».proof.Proof.Gen.Kernel
import proofs.«135016_j49289044689062_1_alg».proof.Proof.Gen.Kernel.Skeleton
import proofs.«135016_j49289044689062_1_alg».proof.Proof.Gen.Kernel.Launch
import proofs.«135016_j49289044689062_1_alg».proof.Proof.Gen.Kernel.Points
import proofs.«135016_j49289044689062_1_alg».proof.Proof.Gen.Kernel.Frame
import proofs.«135016_j49289044689062_1_alg».proof.Proof.Gen.KernelIdeal
import proofs.«135016_j49289044689062_1_alg».proof.Proof.Gen.KernelIdeal.Skeleton
import proofs.«135016_j49289044689062_1_alg».proof.Proof.Gen.KernelIdeal.Launch
import proofs.«135016_j49289044689062_1_alg».proof.Proof.Gen.KernelIdeal.Points
import proofs.«135016_j49289044689062_1_alg».proof.Proof.Gen.KernelIdeal.Frame
import proofs.«135016_j49289044689062_1_alg».proof.Proof.Gen.ReferenceIdeal
import proofs.«135016_j49289044689062_1_alg».proof.Proof.Gen.Pre_finite_inputs
import proofs.«135016_j49289044689062_1_alg».proof.Proof.Gen.KernelIdeal.Value
import proofs.«135016_j49289044689062_1_alg».proof.Proof.Gen.ReferenceIdeal.Run
import proofs.«135016_j49289044689062_1_alg».proof.Proof.Gen.ReferenceIdeal.Read
import proofs.«135016_j49289044689062_1_alg».proof.Proof.RowCosine
import proofs.«135016_j49289044689062_1_alg».proof.Proof.RefRows
import proofs.«135016_j49289044689062_1_alg».proof.Proof.BlockRows
import proofs.«135016_j49289044689062_1_alg».proof.Proof.KernelRows
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on `a` and `b`, both programs end with the array of row cosines of `a` and `b`. -/
theorem algebraic : Cert.algebraic_KernelIdeal_ReferenceIdeal := by
  intro m ρ m' ρ' _ hagree
  refine ⟨_, Cert.KernelIdeal.KernelRows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefRows.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
